-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_arg6 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg5 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg6 main_v21
  let main_c_8 : IVec S_ 32 := constantI S_ 32 50000#32
  let main_v23 : IVec S4096 32 := broadcastInDim S4096 ![] bcast_S_S4096 main_c_8
  let main_v24 : IVec S4096 1 := cmpi .slt main_arg6 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  main_v27

def fn {F : FTy → Type} [FloatOps F] (main_arg0 : FVec F S100000x64 .f32) (main_arg1 : FVec F S50000x64 .f32) (main_arg2 : IVec S4000000 32) (main_arg3 : IVec S4000000 32) (main_arg4 : FVec F S4000000 .f32) (main_arg5 : IVec S4096 32) (main_arg6 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg4
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_c_5 : IVec S_ 32 := constantI S_ 32 150000#32
  fn_part1 (F := F) main_arg5 main_arg6 main_v13 main_v15 main_c_5
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S6000x64 : Shape := ⟨2, ![6000, 64]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S512x64 : Shape := ⟨2, ![512, 64]⟩
abbrev S512x1 : Shape := ⟨2, ![512, 1]⟩
abbrev S512 : Shape := ⟨1, ![512]⟩

abbrev nBuf : Space → Nat
  | .hbm => 108
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S4000000x1, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S150000x64, .f32⟩
  | .hbm, ⟨38, _⟩ => ⟨S4000000x1, .i32⟩
  | .hbm, ⟨39, _⟩ => ⟨S150000x64, .f32⟩
  | .hbm, ⟨40, _⟩ => ⟨S4000000x1, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x64, .f32⟩
  | .hbm, ⟨50, _⟩ => ⟨S4000000x64, .f32⟩
  | .hbm, ⟨51, _⟩ => ⟨S4000000x64, .f32⟩
  | .hbm, ⟨52, _⟩ => ⟨S_, .f32⟩
  | .hbm, ⟨53, _⟩ => ⟨S150000x64, .f32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S1, .i32⟩
  | .hbm, ⟨66, _⟩ => ⟨S_, .i32⟩
  | .hbm, ⟨67, _⟩ => ⟨S4096x1, .i32⟩
  | .hbm, ⟨68, _⟩ => ⟨S4096x1, .i1⟩
  | .hbm, ⟨69, _⟩ => ⟨S1x1, .i32⟩
  | .hbm, ⟨70, _⟩ => ⟨S4096x1, .i32⟩
  | .hbm, ⟨71, _⟩ => ⟨S4096x1, .i1⟩
  | .hbm, ⟨72, _⟩ => ⟨S4096x1, .i1⟩
  | .hbm, ⟨73, _⟩ => ⟨S_, .i1⟩
  | .hbm, ⟨74, _⟩ => ⟨S4096, .i1⟩
  | .hbm, ⟨75, _⟩ => ⟨S4096x64, .f32⟩
  | .hbm, ⟨76, _⟩ => ⟨S4096x64, .i1⟩
  | .hbm, ⟨77, _⟩ => ⟨S_, .f32⟩
  | .hbm, ⟨78, _⟩ => ⟨S4096x64, .f32⟩
  | .hbm, ⟨79, _⟩ => ⟨S4096x64, .f32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S1, .i32⟩
  | .hbm, ⟨92, _⟩ => ⟨S_, .i32⟩
  | .hbm, ⟨93, _⟩ => ⟨S4096x1, .i32⟩
  | .hbm, ⟨94, _⟩ => ⟨S4096x1, .i1⟩
  | .hbm, ⟨95, _⟩ => ⟨S1x1, .i32⟩
  | .hbm, ⟨96, _⟩ => ⟨S4096x1, .i32⟩
  | .hbm, ⟨97, _⟩ => ⟨S4096x1, .i1⟩
  | .hbm, ⟨98, _⟩ => ⟨S4096x1, .i1⟩
  | .hbm, ⟨99, _⟩ => ⟨S_, .i1⟩
  | .hbm, ⟨100, _⟩ => ⟨S4096, .i1⟩
  | .hbm, ⟨101, _⟩ => ⟨S4096x64, .f32⟩
  | .hbm, ⟨102, _⟩ => ⟨S4096x64, .i1⟩
  | .hbm, ⟨103, _⟩ => ⟨S_, .f32⟩
  | .hbm, ⟨104, _⟩ => ⟨S4096x64, .f32⟩
  | .hbm, ⟨105, _⟩ => ⟨S4096x64, .f32⟩
  | .hbm, ⟨106, _⟩ => ⟨S4096x1, .f32⟩
  | .hbm, ⟨107, _⟩ => ⟨S4096, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x1, .f32⟩
  | .local _ .vmem, ⟨15, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_c_1 : Ref sig .tc := ⟨.hbm, 65, rfl⟩
abbrev main_call0_c_2 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_3 : Ref sig .tc := ⟨.hbm, 73, rfl⟩
abbrev main_call0_v12 : Ref sig .tc := ⟨.hbm, 74, rfl⟩
abbrev main_call0_v13 : Ref sig .tc := ⟨.hbm, 75, rfl⟩
abbrev main_call0_v14 : Ref sig .tc := ⟨.hbm, 76, rfl⟩
abbrev main_call0_cst : Ref sig .tc := ⟨.hbm, 77, rfl⟩
abbrev main_call0_v15 : Ref sig .tc := ⟨.hbm, 78, rfl⟩
abbrev main_v41 : Ref sig .tc := ⟨.hbm, 79, rfl⟩
abbrev main_c_7 : Ref sig .tc := ⟨.hbm, 80, rfl⟩
abbrev main_v42 : Ref sig .tc := ⟨.hbm, 81, rfl⟩
abbrev main_v43 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S150000x64_S4096x1_S4096x64_1_0_n_n_0_1_164_wf : GatherDims.WF S150000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S150000x64.size a
  hwx0_3 : ∀ i : grid0.Coords, EltTy.bits .f32 = 32 ∨ (Rect.block (s := S150000x64) S6000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x64.size a ≤ S150000x64.size a
  hwx0_4 : ∀ i : grid0.Coords, EltTy.bits .f32 = 32 ∨ (Rect.block (s := S150000x64) S6000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S4096x64.size a
  hwx1_0 : ∀ i : grid1.Coords, EltTy.bits .f32 = 32 ∨ (Rect.block (s := S4096x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .f32 = 32 ∨ (Rect.block (s := S4096x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S150000x64_S4096x1_S4096x64_1_0_n_n_0_1_164 : GatherDims S150000x64 S4096x1 S4096x64 where
  offsetDims := [1]
  collapsedSliceDims := [0]
  operandBatchingDims := []
  startIndicesBatchingDims := []
  startIndexMap := [0]
  indexVectorDim := 1
  sliceSizes := ![1, 64]
  wf := gather_S150000x64_S4096x1_S4096x64_1_0_n_n_0_1_164_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S6000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S6000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S150000x64, .f32⟩
  | .hbm, ⟨25, _⟩ => ⟨S4000000x1, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000x64, .f32⟩
  | .hbm, ⟨35, _⟩ => ⟨S4000000x64, .f32⟩
  | .hbm, ⟨36, _⟩ => ⟨S4000000x64, .f32⟩
  | .hbm, ⟨37, _⟩ => ⟨S_, .f32⟩
  | .hbm, ⟨38, _⟩ => ⟨S150000x64, .f32⟩
  | .hbm, ⟨39, _⟩ => ⟨S4000000x1, .i32⟩
  | .hbm, ⟨40, _⟩ => ⟨S150000x64, .f32⟩
  | .hbm, ⟨41, _⟩ => ⟨S150000x64, .f32⟩
  | .hbm, ⟨42, _⟩ => ⟨S4000000x1, .f32⟩
  | .hbm, ⟨43, _⟩ => ⟨S_, .i32⟩
  | .hbm, ⟨44, _⟩ => ⟨S4000000, .i32⟩
  | .hbm, ⟨45, _⟩ => ⟨S4000000, .i1⟩
  | .hbm, ⟨46, _⟩ => ⟨S_, .i32⟩
  | .hbm, ⟨47, _⟩ => ⟨S4000000, .i32⟩
  | .hbm, ⟨48, _⟩ => ⟨S4000000, .i32⟩
  | .hbm, ⟨49, _⟩ => ⟨S4000000, .i32⟩
  | .hbm, ⟨50, _⟩ => ⟨S4000000x1, .i32⟩
  | .hbm, ⟨51, _⟩ => ⟨S4000000x64, .f32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S150000x64, .f32⟩
  | .hbm, ⟨56, _⟩ => ⟨S4000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x64, .f32⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S4096x64, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S150000x64_S4096x1_S4096x64_1_0_n_n_0_1_164_wf : GatherDims.WF S150000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S150000x64_S4096x1_S4096x64_1_0_n_n_0_1_164 : GatherDims S150000x64 S4096x1 S4096x64 where
  offsetDims := [1]
  collapsedSliceDims := [0]
  operandBatchingDims := []
  startIndicesBatchingDims := []
  startIndexMap := [0]
  indexVectorDim := 1
  sliceSizes := ![1, 64]
  wf := gather_S150000x64_S4096x1_S4096x64_1_0_n_n_0_1_164_wf

class Facts : Prop extends Facts₀ where

variable [Facts]
-- ==== Proof.KSpec.lean ====
/- What the kernel's program computes, stage by stage, as functions of the argument arrays: the concatenated embedding
   table, one sparse propagation layer (gather the rows at `col`, scale by `vals`, scatter-add at `row`), the pooled table
   (the four layers' sum times 1/4), a row lookup with its range mask, and the score (the logistic of a row dot product). -/
import proofs.«412089_j71184787964144_2_alg».proof.Proof.Gen.KernelIdeal
import Idealize.ShloMosaic.PureOps.Ideal
import Idealize.ShloMosaic.Lib.ValueIdx

noncomputable section

namespace Cert.KernelIdeal.KSpec

open Cert.KernelIdeal Idealize.ShloMosaic Idealize.ShloMosaic.ValueIdx
open Facts₀ Facts

variable [Facts]

section Host
variable {F : FTy → Type} [FloatOps F]

/-- The embedding table: the user rows above the item rows. -/
def emb0 (a0 : FVec F S100000x64 .f32) (a1 : FVec F S50000x64 .f32) : FVec F S150000x64 .f32 :=
  concatenate S150000x64 0 [⟨S100000x64, a0⟩, ⟨S50000x64, a1⟩] concatenates_S100000x64_S50000x64_S150000x64_d0

/-- The column indices with negative ones wrapped by the table's height, as a column. -/
def wrapCol (a3 : IVec S4000000 32) : IVec S4000000x1 32 :=
  broadcastInDim S4000000x1 ![0] bcast_S4000000_S4000000x1_0
    (select (cmpi .slt a3 (broadcastInDim S4000000 ![] bcast_S_S4000000 (constantI S_ 32 0#32)))
      (addi a3 (broadcastInDim S4000000 ![] bcast_S_S4000000 (constantI S_ 32 150000#32))) a3)

/-- One propagation layer: row `r` of the result is the sum over the edges `e` with `row e = r` of `vals e` times row `col e` of `e₀`. -/
def spmm (a2 a3 : IVec S4000000 32) (a4 : FVec F S4000000 .f32) (e : FVec F S150000x64 .f32) : FVec F S150000x64 .f32 :=
  Host.scatterAdd scatter_S150000x64_S4000000x1_S4000000x64_1_0_0_1
    (broadcastInDim S150000x64 ![] bcast_S_S150000x64 (constant S_ .f32 0x00000000#32))
    (broadcastInDim S4000000x1 ![0] bcast_S4000000_S4000000x1_0 a2)
    (mulf (broadcastInDim S4000000x64 ![0, 1] bcast_S4000000x1_S4000000x64_0_1 (broadcastInDim S4000000x1 ![0] bcast_S4000000_S4000000x1_0 a4))
      (Host.gather gather_S150000x64_S4000000x1_S4000000x64_1_0_n_n_0_1_164 e (wrapCol a3)))

/-- A batch of row indices with negative ones wrapped by the table's height, as a column. -/
def wrapRow (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 150000#32))) idx)

/-- The lookup's range mask: row `b` is kept when its wrapped index lies in `[0, 149999]`. -/
def takeMask (w : IVec S4096x1 32) : IVec S4096 1 :=
  Host.reduce IntOp.andi
    (andi (cmpi .sge w (broadcastInDim S4096x1 ![] bcast_S_S4096x1 (constantI S_ 32 0#32)))
      (cmpi .sle w (broadcastInDim S4096x1 ![0, 1] bcast_S1x1_S4096x1_0_1 (broadcastInDim S1x1 ![1] bcast_S1_S1x1_1 (constantI S1 32 149999#32)))))
    (constantI S_ 1 1#1) reducesTo_S4096x1_S4096_d1 h_S_

/-- The row lookup as the kernel's program makes it: the rows gathered at the wrapped indices where the mask keeps them, the
    quiet-NaN word elsewhere. -/
def takeK (L : FVec F S150000x64 .f32) (idx : IVec S4096 32) : FVec F S4096x64 .f32 :=
  select (broadcastInDim S4096x64 ![0] bcast_S4096_S4096x64_0 (takeMask (wrapRow idx)))
    (Host.gather gather_S150000x64_S4096x1_S4096x64_1_0_n_n_0_1_164 L (wrapRow idx))
    (broadcastInDim S4096x64 ![] bcast_S_S4096x64 (constant S_ .f32 0x7FC00000#32))

/-- The item indices moved below the user rows. -/
def itemIdx (a6 : IVec S4096 32) : IVec S4096 32 :=
  addi (broadcastInDim S4096 ![] bcast_S_S4096 (constantI S_ 32 100000#32)) a6

end Host

/-- The pooled table: the four layers' sum, scaled by the word of 1/4, entry by entry. -/
def pool (e0 e1 e2 e3 : FVec Ideal S150000x64 .f32) : FVec Ideal S150000x64 .f32 :=
  fun i => (((e0 i + e1 i) + e2 i) + e3 i) * Ideal.ofBits .f32 0x3E800000#32

/-- Row `b`, column `k` of a batch of rows. -/
abbrev rc (i : S4096x1.Idx) (k : Fin 64) : S4096x64.Idx := ix2 (⟨(i 0).val, (i 0).isLt⟩ : Fin 4096) k

/-- The score column: the logistic of each row pair's dot product. -/
def score (u v : FVec Ideal S4096x64 .f32) : FVec Ideal S4096x1 .f32 :=
  fun i => Ideal.logistic (∑ k : Fin 64, u (rc i k) * v (rc i k))

/-- The pooled table of the argument arrays. -/
def table (a0 : FVec Ideal S100000x64 .f32) (a1 : FVec Ideal S50000x64 .f32) (a2 a3 : IVec S4000000 32) (a4 : FVec Ideal S4000000 .f32) :
    FVec Ideal S150000x64 .f32 :=
  pool (emb0 a0 a1) (spmm a2 a3 a4 (emb0 a0 a1)) (spmm a2 a3 a4 (spmm a2 a3 a4 (emb0 a0 a1)))
    (spmm a2 a3 a4 (spmm a2 a3 a4 (spmm a2 a3 a4 (emb0 a0 a1))))

/-- The program's result: the score column of the looked-up user and item rows, as a vector. -/
def result (a0 : FVec Ideal S100000x64 .f32) (a1 : FVec Ideal S50000x64 .f32) (a2 a3 : IVec S4000000 32) (a4 : FVec Ideal S4000000 .f32)
    (a5 a6 : IVec S4096 32) : FVec Ideal S4096 .f32 :=
  shapeCast S4096 (score (takeK (table a0 a1 a2 a3 a4) a5) (takeK (table a0 a1 a2 a3 a4) (itemIdx a6))) shapeCasts_S4096x1_S4096

end Cert.KernelIdeal.KSpec

end
-- ==== Proof.Region0.lean ====
/- Region 0 (the pooling call): the array its write-backs leave is the pooled table of the four arrays it reads. -/
import proofs.«412089_j71184787964144_2_alg».proof.Proof.Gen.KernelIdeal.Frame
import proofs.«412089_j71184787964144_2_alg».proof.Proof.KSpec
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The whole-block rectangle's offsets are zero on both axes. -/
theorem hz : (![0, 0] : Fin 2 → Nat) = fun _ => 0 := funext fun a => by fin_cases a <;> rfl

/-- The body's payload, entry by entry: the sum of the four blocks' entries times the word of 1/4. -/
theorem pay_apply (x0 x1 x2 x3 : Vec Ideal S6000x64 .f32) (j : S6000x64.Idx) :
    k0_pay1 x0 x1 x2 x3 j = (((x0 j + x1 j) + x2 j) + x3 j) * Ideal.ofBits .f32 0x3E800000#32 := by
  unfold k0_pay1
  simp only [shapeCast_self]
  rfl

/-- The four input windows and the output window name the same block at every point: block `t` on the row axis, the whole
    column axis. -/
theorem idx_facts : ∀ t : Fin cfg0.N, win0_0.index t = win0_4.index t ∧ win0_1.index t = win0_4.index t
    ∧ win0_2.index t = win0_4.index t ∧ win0_3.index t = win0_4.index t
    ∧ win0_4.index t (0 : Fin 2) = t.val ∧ win0_4.index t (1 : Fin 2) = 0 :=
  (by decide +kernel : ∀ t : Fin grid0.N, _)

/-- Block `t` of the pooled table is the payload of block `t` of each of the four tables: the five windows cut the same
    rectangle, and the payload is entrywise. -/
theorem blk_pool (E0 E1 E2 E3 : FVec Ideal S150000x64 .f32) (t : Fin cfg0.N) :
    (cfg0.win 4).cut (grid0.coords t)
        (k0_pay1 (((cfg0.win 0).blk t).view.read (Elt Ideal) E0) (((cfg0.win 1).blk t).view.read (Elt Ideal) E1)
          (((cfg0.win 2).blk t).view.read (Elt Ideal) E2) (((cfg0.win 3).blk t).view.read (Elt Ideal) E3))
      = ((cfg0.win 4).blk t).view.read (Elt Ideal) (KSpec.pool E0 E1 E2 E3) := by
  obtain ⟨e0, e1, e2, e3, -, -⟩ := idx_facts t
  funext j
  show k0_pay1 _ _ _ _ j = KSpec.pool E0 E1 E2 E3 (((cfg0.win 4).blk t).view.emb j)
  rw [pay_apply]
  show (((E0 (((cfg0.win 0).blk t).view.emb j) + E1 (((cfg0.win 1).blk t).view.emb j)) + E2 (((cfg0.win 2).blk t).view.emb j))
        + E3 (((cfg0.win 3).blk t).view.emb j)) * Ideal.ofBits .f32 0x3E800000#32
      = (((E0 (((cfg0.win 4).blk t).view.emb j) + E1 (((cfg0.win 4).blk t).view.emb j)) + E2 (((cfg0.win 4).blk t).view.emb j))
        + E3 (((cfg0.win 4).blk t).view.emb j)) * Ideal.ofBits .f32 0x3E800000#32
  -- coordinate `a` of a block entry's place in its array is the block index times the block's extent plus the entry's coordinate
  have h0 : ((cfg0.win 0).blk t).view.emb j = ((cfg0.win 4).blk t).view.emb j := funext fun a => Fin.ext
    (show win0_0.index t a * S6000x64.size a + 1 * (j a).val = win0_4.index t a * S6000x64.size a + 1 * (j a).val by rw [e0])
  have h1 : ((cfg0.win 1).blk t).view.emb j = ((cfg0.win 4).blk t).view.emb j := funext fun a => Fin.ext
    (show win0_1.index t a * S6000x64.size a + 1 * (j a).val = win0_4.index t a * S6000x64.size a + 1 * (j a).val by rw [e1])
  have h2 : ((cfg0.win 2).blk t).view.emb j = ((cfg0.win 4).blk t).view.emb j := funext fun a => Fin.ext
    (show win0_2.index t a * S6000x64.size a + 1 * (j a).val = win0_4.index t a * S6000x64.size a + 1 * (j a).val by rw [e2])
  have h3 : ((cfg0.win 3).blk t).view.emb j = ((cfg0.win 4).blk t).view.emb j := funext fun a => Fin.ext
    (show win0_3.index t a * S6000x64.size a + 1 * (j a).val = win0_4.index t a * S6000x64.size a + 1 * (j a).val by rw [e3])
  rw [h0, h1, h2, h3]

/-- WHAT POINT `t` WRITES BACK is block `t` of the pooled table of the four arrays as the call finds them. -/
theorem flushed_eq (c : Dev nD) (t : Fin cfg0.N) :
    (dat0 (F := Ideal) (V1 m ρ) c).flushed 4 t = ((cfg0.win 4).blk t).view.read (Elt Ideal)
      (KSpec.pool (V1 m ρ c main_v0) (V1 m ρ c main_v13) (V1 m ρ c main_v26) (V1 m ρ c main_v39)) := by
  show (cfg0.win 4).cut (grid0.coords t) ((dat0 (F := Ideal) (V1 m ρ) c).after 4 t) = _
  rw [after0_4 (V1 m ρ) c t]
  unfold out0_4
  rw [View.canon_unit_zero hz]
  simp only [View.ld_unit_zero (S := S6000x64) hz]
  exact blk_pool (V1 m ρ c main_v0) (V1 m ρ c main_v13) (V1 m ρ c main_v26) (V1 m ρ c main_v39) t

/-- An index of the table is in point `t`'s block iff each coordinate is in the block's range on its axis. -/
theorem mem_blk (t : Fin cfg0.N) (i : S150000x64.Idx) :
    i ∈ ((cfg0.win 4).blk t).view.set ↔ ∀ a : Fin 2, win0_4.index t a * S6000x64.size a ≤ (i a).val
      ∧ (i a).val < win0_4.index t a * S6000x64.size a + S6000x64.size a := by
  show i ∈ ((View.whole main_v40).slice (win0_4.rect t)).set ↔ _
  rw [View.set_slice_whole, Rect.mem_set_unit]
  exact Iff.rfl

/-- The 25 blocks of 6000 rows tile the 150000 rows: row `r` lies in the block of point `r / 6000`, and every point writes
    its block back. -/
theorem cover (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have hN : grid0.N = 25 := N_0
  have ht : (i 0).val / 6000 < cfg0.N := by show _ < grid0.N; rw [hN]; omega
  obtain ⟨-, -, -, -, q0, q1⟩ := idx_facts ⟨(i 0).val / 6000, ht⟩
  refine ⟨⟨(i 0).val / 6000, ht⟩, flush0_4 _, ?_⟩
  rw [mem_blk]
  intro a
  match a with
  | ⟨0, _⟩ =>
    show win0_4.index ⟨(i 0).val / 6000, ht⟩ (0 : Fin 2) * 6000 ≤ (i 0).val
      ∧ (i 0).val < win0_4.index ⟨(i 0).val / 6000, ht⟩ (0 : Fin 2) * 6000 + 6000
    rw [q0]; show (i 0).val / 6000 * 6000 ≤ (i 0).val ∧ (i 0).val < (i 0).val / 6000 * 6000 + 6000; omega
  | ⟨1, _⟩ =>
    show win0_4.index ⟨(i 0).val / 6000, ht⟩ (1 : Fin 2) * 64 ≤ (i 1).val
      ∧ (i 1).val < win0_4.index ⟨(i 0).val / 6000, ht⟩ (1 : Fin 2) * 64 + 64
    rw [q1]; omega

/-- After the pooling call its output array is `KSpec.pool` of its four input arrays as the call finds them. -/
theorem pool_final (c : Dev nD) :
    (dat0 (F := Ideal) (V1 m ρ) c).arrAt 4 cfg0.N
      = KSpec.pool (V1 m ρ c main_v0) (V1 m ρ c main_v13) (V1 m ρ c main_v26) (V1 m ρ c main_v39) :=
  (dat0 (F := Ideal) (V1 m ρ) c).arrAt_eq_of_cover 4
    (KSpec.pool (V1 m ρ c main_v0) (V1 m ρ c main_v13) (V1 m ρ c main_v26) (V1 m ρ c main_v39))
    (fun t _ => flushed_eq m ρ c t) cover

end Cert.KernelIdeal.Region0

end
-- ==== Proof.Region1.lean ====
/- Region 1 (the score call): the array its write-backs leave is the score column of the two batches of rows it reads. -/
import proofs.«412089_j71184787964144_2_alg».proof.Proof.Gen.KernelIdeal.Frame
import proofs.«412089_j71184787964144_2_alg».proof.Proof.KSpec
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-! ## The payload at an index -/

/-- The lane sum of a block of rows at row `p`: the sum over the 64 columns. -/
theorem laneSum_apply (src : FVec Ideal S512x64 .f32) (hφ : FKind.Formats .f32)
    (hacc : (0x00000000#32 : BitVec 32) = 0x00000000#32) (p : Fin 512) :
    multiReduction .add [1] S512 src 0x00000000#32 reduces_S512x64_S512 hφ hacc (ix1 p) = ∑ k : Fin 64, src (ix2 p k) := by
  refine (Ideal.multiReduction_add_single src 0x00000000#32 reduces_S512x64_S512 hφ hacc (ix1 p)).trans ?_
  show ∑ k : Fin 64, src (reduces_S512x64_S512.lift (ix1 p) k) = ∑ k : Fin 64, src (ix2 p k)
  refine Finset.sum_congr rfl fun k _ => congrArg src ?_
  funext a
  apply Fin.ext
  match a with
  | ⟨0, _⟩ => rfl
  | ⟨1, _⟩ => rfl

/-- The score payload at row `p` of a block: the logistic of the dot product of the two operands' rows `p`. -/
theorem pay_apply (x0 x1 : Vec Ideal S512x64 .f32) (p : Fin 512) (q : Fin 1) :
    k1_pay1 x0 x1 (ix2 p q) = Ideal.logistic (∑ k : Fin 64, x0 (ix2 p k) * x1 (ix2 p k)) := by
  unfold k1_pay1
  rw [shapeCast_self, shapeCast_self]
  show Ideal.logistic (shapeCast S512x1 (multiReduction (F := Ideal) .add [1] S512 (mulf (F := Ideal) x0 x1) 0x00000000#32 reduces_S512x64_S512 (.inl rfl) rfl)
    shapeCasts_S512_S512x1 (ix2 p q)) = _
  congr 1
  refine (shapeCast_apply _ shapeCasts_S512_S512x1 (ix2 p q) (ix1 p) ?_).trans ?_
  · rw [Shape.rowMajor_val_one, Shape.rowMajor_val_two]
    show p.val = p.val * 1 + q.val
    omega
  · exact laneSum_apply (mulf (F := Ideal) x0 x1) (.inl rfl) rfl p

/-! ## What a grid point writes back -/

section AtEntry
-- the buffer contents the call finds: everything below is stated at any such contents
variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The three windows' index maps send point `t` to block `(t, 0)` (decided over the 8 points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the score column of the two input arrays. -/
theorem flushed_eq (c : Dev nD) (t : Fin cfg1.N) :
    (dat1 (F := Ideal) V c).flushed 2 t
      = ((cfg1.win 2).blk t).view.read (Elt Ideal) (KSpec.score (V c main_v41) (V c main_v44)) := by
  show (cfg1.win 2).cut (grid1.coords t) ((dat1 V c).after 2 t) = _
  rw [after1_2]
  unfold out1_2
  rw [View.canon_unit_zero hz]
  simp only [View.ld_unit_zero (S := S512x64) hz]
  apply funext
  intro (j : S512x1.Idx)
  obtain ⟨p, q, rfl⟩ : ∃ (p : Fin 512) (q : Fin 1), j = ix2 p q := ⟨j 0, j 1, eq_ix2 j⟩
  show k1_pay1 (iblk1 V c 0 t) (iblk1 V c 1 t) (ix2 p q)
    = KSpec.score (V c main_v41) (V c main_v44) (((cfg1.win 2).blk t).view.emb (ix2 p q))
  rw [pay_apply]
  unfold KSpec.score
  obtain ⟨e00, e01, e10, e11, e20, e21⟩ := idx_facts t
  -- row `p` of either input block is the row of the array that row `p` of the output block names
  have h0 : ∀ k : Fin 64, ((cfg1.win 0).blk t).view.emb (ix2 p k)
      = KSpec.rc (((cfg1.win 2).blk t).view.emb (ix2 p q)) k := by
    intro k; funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 64 + 1 * k.val = k.val; omega
  have h1 : ∀ k : Fin 64, ((cfg1.win 1).blk t).view.emb (ix2 p k)
      = KSpec.rc (((cfg1.win 2).blk t).view.emb (ix2 p q)) k := by
    intro k; funext a; apply Fin.ext
    match a with
    | ⟨0, _⟩ => show win1_1.index t (0 : Fin 2) * 512 + 1 * p.val = win1_2.index t (0 : Fin 2) * 512 + 1 * p.val; omega
    | ⟨1, _⟩ => show win1_1.index t (1 : Fin 2) * 64 + 1 * k.val = k.val; omega
  have key : ∀ U W : FVec Ideal S4096x64 .f32,
      (∑ k : Fin 64, U (((cfg1.win 0).blk t).view.emb (ix2 p k)) * W (((cfg1.win 1).blk t).view.emb (ix2 p k)))
        = ∑ k : Fin 64, U (KSpec.rc (((cfg1.win 2).blk t).view.emb (ix2 p q)) k)
            * W (KSpec.rc (((cfg1.win 2).blk t).view.emb (ix2 p q)) k) := by
    intro U W
    refine Finset.sum_congr rfl fun k _ => ?_
    rw [h0 k, h1 k]
  exact congrArg Ideal.logistic (key (V c main_v41) (V c main_v44))

end AtEntry

/-! ## The blocks cover the column -/

section Cover
variable (V : (c : Dev nD) → (b : Ref sig .tc) → Buf (Elt Ideal) ((c : Thread nD τ).loc b))

/-- An index of the column is in point `t`'s block iff each coordinate is in the block's range on its axis. -/
theorem mem_blk (t : Fin cfg1.N) (i : S4096x1.Idx) :
    i ∈ ((cfg1.win 2).blk t).view.set ↔ ∀ a : Fin 2, win1_2.index t a * S512x1.size a ≤ (i a).val
      ∧ (i a).val < win1_2.index t a * S512x1.size a + S512x1.size a := by
  show i ∈ ((View.whole main_v45).slice (win1_2.rect t)).set ↔ _
  rw [View.set_slice_whole, Rect.mem_set_unit]
  exact Iff.rfl

/-- Row `b` of the column lies in the block of point `b / 512`. -/
theorem cover (i : S4096x1.Idx) :
    ∃ t : Fin cfg1.N, (cfg1.win 2).flush t = true ∧ i ∈ ((cfg1.win 2).blk t).view.set := by
  have hi0 : (i 0).val < 4096 := (i 0).isLt
  have hi1 : (i 1).val < 1 := (i 1).isLt
  have hN : (i 0).val / 512 < grid1.N := by rw [N_1]; omega
  obtain ⟨-, -, -, -, e20, e21⟩ := idx_facts ⟨(i 0).val / 512, hN⟩
  have e20' : win1_2.index ⟨(i 0).val / 512, hN⟩ (0 : Fin 2) = (i 0).val / 512 := e20
  refine ⟨⟨(i 0).val / 512, hN⟩, flush1_2 _, ?_⟩
  rw [mem_blk]
  intro a
  match a with
  | ⟨0, _⟩ =>
    show win1_2.index ⟨(i 0).val / 512, hN⟩ (0 : Fin 2) * 512 ≤ (i 0).val
      ∧ (i 0).val < win1_2.index ⟨(i 0).val / 512, hN⟩ (0 : Fin 2) * 512 + 512
    omega
  | ⟨1, _⟩ =>
    show win1_2.index ⟨(i 0).val / 512, hN⟩ (1 : Fin 2) * 1 ≤ (i 1).val
      ∧ (i 1).val < win1_2.index ⟨(i 0).val / 512, hN⟩ (1 : Fin 2) * 1 + 1
    omega

/-- At any entry contents, the output array after the call is the score column of the two input arrays. -/
theorem score_final_at (c : Dev nD) :
    (dat1 (F := Ideal) V c).arrAt 2 cfg1.N = KSpec.score (V c main_v41) (V c main_v44) :=
  (dat1 V c).arrAt_eq_of_cover 2 (KSpec.score (V c main_v41) (V c main_v44)) (fun t _ => flushed_eq V c t) cover

end Cover

/-- After the score call its output array is `KSpec.score` of its two input arrays as the call finds them. -/
theorem score_final (c : Dev nD) :
    (dat1 (F := Ideal) (V5 m ρ) c).arrAt 2 cfg1.N = KSpec.score (V5 m ρ c main_v41) (V5 m ρ c main_v44) :=
  score_final_at (V5 m ρ) c

end Cert.KernelIdeal.Region1

end
-- ==== Proof.HostA.lean ====
/- The host operations before the pooling call: the four arrays the call reads, as functions of the arguments. -/
import proofs.«412089_j71184787964144_2_alg».proof.Proof.Gen.KernelIdeal.Frame
import proofs.«412089_j71184787964144_2_alg».proof.Proof.KSpec
import Idealize.ShloMosaic.Lib.StableHlo.Run

noncomputable section

namespace Cert.KernelIdeal.HostA

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxRecDepth 8192 in
set_option maxHeartbeats 4000000 in
/-- Layer 0: the user rows above the item rows. -/
theorem V1_v0 (c : Dev nD) : (V1 m ρ c main_v0 : FVec Ideal S150000x64 .f32)
    = KSpec.emb0 (F := Ideal) (m ((c : Thread nD τ).loc main_arg0)) (m ((c : Thread nD τ).loc main_arg1)) := by
  show StableHlo.after hostOps0 _ (Proc.devRef .tc main_v0) = _
  after_results_simp
  rfl

set_option maxRecDepth 8192 in
set_option maxHeartbeats 4000000 in
/-- Layer 1: one propagation step applied to the embedding table. -/
theorem V1_v13 (c : Dev nD) : (V1 m ρ c main_v13 : FVec Ideal S150000x64 .f32)
    = KSpec.spmm (F := Ideal) (m ((c : Thread nD τ).loc main_arg2)) (m ((c : Thread nD τ).loc main_arg3)) (m ((c : Thread nD τ).loc main_arg4))
        (KSpec.emb0 (m ((c : Thread nD τ).loc main_arg0)) (m ((c : Thread nD τ).loc main_arg1))) := by
  show StableHlo.after hostOps0 _ (Proc.devRef .tc main_v13) = _
  after_results_simp
  rfl

set_option maxRecDepth 8192 in
set_option maxHeartbeats 4000000 in
/-- Layer 2: the propagation step applied twice. -/
theorem V1_v26 (c : Dev nD) : (V1 m ρ c main_v26 : FVec Ideal S150000x64 .f32)
    = KSpec.spmm (F := Ideal) (m ((c : Thread nD τ).loc main_arg2)) (m ((c : Thread nD τ).loc main_arg3)) (m ((c : Thread nD τ).loc main_arg4))
        (KSpec.spmm (m ((c : Thread nD τ).loc main_arg2)) (m ((c : Thread nD τ).loc main_arg3)) (m ((c : Thread nD τ).loc main_arg4))
          (KSpec.emb0 (m ((c : Thread nD τ).loc main_arg0)) (m ((c : Thread nD τ).loc main_arg1)))) := by
  show StableHlo.after hostOps0 _ (Proc.devRef .tc main_v26) = _
  after_results_simp
  rfl

set_option maxRecDepth 8192 in
set_option maxHeartbeats 4000000 in
/-- Layer 3: the propagation step applied three times. -/
theorem V1_v39 (c : Dev nD) : (V1 m ρ c main_v39 : FVec Ideal S150000x64 .f32)
    = KSpec.spmm (F := Ideal) (m ((c : Thread nD τ).loc main_arg2)) (m ((c : Thread nD τ).loc main_arg3)) (m ((c : Thread nD τ).loc main_arg4))
        (KSpec.spmm (m ((c : Thread nD τ).loc main_arg2)) (m ((c : Thread nD τ).loc main_arg3)) (m ((c : Thread nD τ).loc main_arg4))
          (KSpec.spmm (m ((c : Thread nD τ).loc main_arg2)) (m ((c : Thread nD τ).loc main_arg3)) (m ((c : Thread nD τ).loc main_arg4))
            (KSpec.emb0 (m ((c : Thread nD τ).loc main_arg0)) (m ((c : Thread nD τ).loc main_arg1))))) := by
  show StableHlo.after hostOps0 _ (Proc.devRef .tc main_v39) = _
  after_results_simp
  rfl

end Cert.KernelIdeal.HostA

end
-- ==== Proof.HostB.lean ====
/- The host operations between the two calls and after the second: the two batches of rows the score call reads, looked
   up in the pooled table as the pooling call left it, and the result vector as the score column re-laid. -/
import proofs.«412089_j71184787964144_2_alg».proof.Proof.Gen.KernelIdeal.Frame
import proofs.«412089_j71184787964144_2_alg».proof.Proof.KSpec
import Idealize.ShloMosaic.Lib.StableHlo.Run

noncomputable section

namespace Cert.KernelIdeal.HostB

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a stretch writes holds after the stretch what it held before. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The three stretches as functions of the contents they start from -/

/-- The first lookup's stretch, from any contents `V`: its last buffer holds the masked lookup of the rows of `V` at the
    pooled table's buffer, at the indices `V` holds at the user batch's buffer. -/
theorem take_of (V : Valuation τ sig (Elt Ideal)) :
    (StableHlo.after hostOps1 V (Proc.devRef .tc main_v41) : FVec Ideal S4096x64 .f32)
      = KSpec.takeK (F := Ideal) (V (Proc.devRef .tc main_v40) : FVec Ideal S150000x64 .f32) (V (Proc.devRef .tc main_arg5)) := by
  after_results_simp
  simp only [StableHlo.TRef.ofBuf, StableHlo.TRef.toBuf, cast_eq]
  unfold KSpec.takeK KSpec.takeMask KSpec.wrapRow
  rfl

/-- The shift's stretch, from any contents `V`: its last buffer holds the item indices moved below the user rows. -/
theorem shift_of (V : Valuation τ sig (Elt Ideal)) :
    (StableHlo.after hostOps1_1 V (Proc.devRef .tc main_v43) : IVec S4096 32)
      = KSpec.itemIdx (V (Proc.devRef .tc main_arg6)) := by
  after_results
  rfl

/-- The second lookup's stretch, from any contents `V`: the same masked lookup at the indices `V` holds at the shifted
    batch's buffer. -/
theorem take0_of (V : Valuation τ sig (Elt Ideal)) :
    (StableHlo.after hostOps1_2 V (Proc.devRef .tc main_v44) : FVec Ideal S4096x64 .f32)
      = KSpec.takeK (F := Ideal) (V (Proc.devRef .tc main_v40) : FVec Ideal S150000x64 .f32) (V (Proc.devRef .tc main_v43)) := by
  after_results_simp
  simp only [StableHlo.TRef.ofBuf, StableHlo.TRef.toBuf, cast_eq]
  unfold KSpec.takeK KSpec.takeMask KSpec.wrapRow
  rfl

/-! ## The buffers the stretches only read, walked back -/

/-- The user batch's buffer holds at the pooling call's exit what the launch memory holds. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by not_written hostOps0
    _ = m ((c : Thread nD τ).loc main_arg5) := rfl

/-- The item batch's buffer holds after the first lookup what the launch memory holds. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

/-- The pooled table's buffer is as the pooling call left it until the second lookup reads it. -/
theorem W4_v40 (c : Dev nD) : W4 m ρ c (Proc.devRef .tc main_v40) = W2 m ρ c (Proc.devRef .tc main_v40) :=
  calc W4 m ρ c (Proc.devRef .tc main_v40)
    _ = W3 m ρ c (Proc.devRef .tc main_v40) := by not_written hostOps1_1
    _ = W2 m ρ c (Proc.devRef .tc main_v40) := by not_written hostOps1

/-! ## The three buffers -/

theorem V5_v41 (c : Dev nD) : (V5 m ρ c main_v41 : FVec Ideal S4096x64 .f32)
    = KSpec.takeK (F := Ideal) (W2 m ρ c (Proc.devRef .tc main_v40) : FVec Ideal S150000x64 .f32) (m ((c : Thread nD τ).loc main_arg5)) := by
  have h54 : W5 m ρ c (Proc.devRef .tc main_v41) = W4 m ρ c (Proc.devRef .tc main_v41) := by not_written hostOps1_2
  have h43 : W4 m ρ c (Proc.devRef .tc main_v41) = W3 m ρ c (Proc.devRef .tc main_v41) := by not_written hostOps1_1
  show W5 m ρ c (Proc.devRef .tc main_v41) = _
  rw [h54, h43, ← W2_arg5 m ρ c]
  exact take_of (W2 m ρ c)

theorem V5_v44 (c : Dev nD) : (V5 m ρ c main_v44 : FVec Ideal S4096x64 .f32)
    = KSpec.takeK (F := Ideal) (W2 m ρ c (Proc.devRef .tc main_v40) : FVec Ideal S150000x64 .f32) (KSpec.itemIdx (m ((c : Thread nD τ).loc main_arg6))) := by
  have h43 : W4 m ρ c (Proc.devRef .tc main_v43) = KSpec.itemIdx (m ((c : Thread nD τ).loc main_arg6)) := by
    rw [← W3_arg6 m ρ c]; exact shift_of (W3 m ρ c)
  rw [← W4_v40 m ρ c, ← h43]
  exact take0_of (W4 m ρ c)

theorem W7_v46 (c : Dev nD) : (W7 m ρ c (Proc.devRef .tc main_v46) : FVec Ideal S4096 .f32)
    = shapeCast S4096 (W6 m ρ c (Proc.devRef .tc main_v45) : FVec Ideal S4096x1 .f32) shapeCasts_S4096x1_S4096 := by
  show StableHlo.after hostOps2 (W6 m ρ c) (Proc.devRef .tc main_v46) = _
  after_results
  rfl

end Cert.KernelIdeal.HostB

end
-- ==== Proof.KValue.lean ====
/- The kernel's program, read: its result buffer ends at `KSpec.result` of the argument arrays. The reshape reads the score
   call's output array, which is the score column of the two batches of looked-up rows; each lookup reads the pooling call's
   output array, which is the pooled table of the embedding table and its three propagated layers. -/
import proofs.«412089_j71184787964144_2_alg».proof.Proof.Region0
import proofs.«412089_j71184787964144_2_alg».proof.Proof.Region1
import proofs.«412089_j71184787964144_2_alg».proof.Proof.HostA
import proofs.«412089_j71184787964144_2_alg».proof.Proof.HostB

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The pooling call's output array, as the later operations find it, is the pooled table of the arguments. -/
theorem W2_table (c : Dev nD) : (W2 m ρ c (Proc.devRef .tc main_v40) : FVec Ideal S150000x64 .f32)
    = KSpec.table (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 4).trans ((Region0.pool_final m ρ c).trans ?_)
  rw [HostA.V1_v0 m ρ c, HostA.V1_v13 m ρ c, HostA.V1_v26 m ρ c, HostA.V1_v39 m ρ c]
  rfl

/-- The score call's output array, as the reshape finds it, is the score column of the two looked-up batches. -/
theorem W6_score (c : Dev nD) : (W6 m ρ c (Proc.devRef .tc main_v45) : FVec Ideal S4096x1 .f32)
    = KSpec.score (V5 m ρ c main_v41) (V5 m ρ c main_v44) :=
  (W6_arr m ρ c 2).trans (Region1.score_final m ρ c)

theorem W7_result (c : Dev nD) : (W7 m ρ c (Proc.devRef .tc main_v46) : FVec Ideal S4096 .f32)
    = KSpec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [HostB.W7_v46 m ρ c, W6_score m ρ c, HostB.V5_v41 m ρ c, HostB.V5_v44 m ρ c, W2_table m ρ c]
  rfl

end Cert.KernelIdeal.KValue

end
-- ==== Proof.RefSide.lean ====
/- The reference's run, read: its result as one term of the argument arrays. -/
import proofs.«412089_j71184787964144_2_alg».proof.Proof.Gen.ReferenceIdeal.Run
import proofs.«412089_j71184787964144_2_alg».proof.Proof.Gen.ReferenceIdeal.Read

noncomputable section

namespace Cert.ReferenceIdeal.RefSide

end Cert.ReferenceIdeal.RefSide

end
-- ==== Proof.LibIndexRange.lean ====
/-
  Index words in the range [0, 200000), read through the host operations that test and wrap them.

  An array `adj` of 32-bit words, of two extents `c` and `d`, is read signed.

  * `fill_select_eq`. The wrapped word is `adj + 200000` where `adj` is negative and `adj` elsewhere. Give it a
    trailing axis of extent one, test `0 ≤ w` and `w ≤ 199999` there, reduce the conjunction by `and` over that
    axis from the word 1, stretch the resulting mask over a third axis of extent 128 and select by it between two
    arrays `G` and `X`. When every entry of `adj` already lies in [0, 200000) the wrapped word is the entry itself,
    both tests hold at every position, the mask is 1 everywhere, and the selection is `G`.

  * `range_of_all`. Conversely, when the conjunction of the tests `adj ≥ 0` and `adj < 200000`, reduced by `and` over
    both axes from the word 1, is the word 1, every entry of `adj` lies in [0, 200000).

  Both rest on one fact about a fold by `and` of one-bit words from 1: it is 1 exactly when every word folded is 1.
-/
import Idealize.ShloMosaic.PureOps
import Idealize.ShloMosaic.Lib.ValueIdx
import Idealize.ShloMosaic.Lib.StableHlo.Predicate
import Idealize.ShloMosaic.Lib.ReduceAll

namespace Cert.Lib.IndexRange

open Idealize.ShloMosaic Idealize.ShloMosaic.ValueIdx

/-! ## The three constants, read signed -/

theorem toInt_zero : (0#32 : BitVec 32).toInt = 0 := by decide
theorem toInt_bound : (200000#32 : BitVec 32).toInt = 200000 := by decide
theorem toInt_last : (199999#32 : BitVec 32).toInt = 199999 := by decide

/-! ## A fold by `and` from 1 over words that are all 1 is 1 -/

/-- The left fold by `and`, from 1, of a family of one-bit words that are all 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from an initial word 1 of an array whose every entry is 1 is 1 at every result index,
    whatever the axes reduced. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_one x hx _

/-! ## The wrapped word -/

/-- The wrapped index array with a trailing axis of extent one: `adj + 200000` where `adj` is negative, `adj`
    elsewhere. -/
abbrev wrap3 {c d : Nat}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (adj : IVec ⟨2, ![c, d]⟩ 32) : IVec ⟨3, ![c, d, 1]⟩ 32 :=
  broadcastInDim ⟨3, ![c, d, 1]⟩ ![0, 1] hb3
    (select (cmpi .slt adj (broadcastInDim ⟨2, ![c, d]⟩ ![] hb2 (constantI ⟨0, ![]⟩ 32 0#32)))
            (addi adj (broadcastInDim ⟨2, ![c, d]⟩ ![] hb2 (constantI ⟨0, ![]⟩ 32 200000#32))) adj)

/-- A word that is not negative is not below zero, so the wrap leaves it alone. -/
theorem wrap_word {a : BitVec 32} (ha : (0 : Int) ≤ a.toInt) (b : BitVec 32) :
    Scalar.select (IntOp.cmpi .slt a 0#32) b a = a := by
  have hz : IntOp.cmpi .slt a 0#32 = 0#1 :=
    eq_zero_of_ne_one fun h1 => by
      have := IntOp.cmpi_slt.1 h1
      rw [toInt_zero] at this
      omega
  rw [hz, select_zero]

/-- Every entry of the wrapped array is an entry of `adj` when `adj` has no negative entry. -/
theorem wrap3_apply {c d : Nat}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (adj : IVec ⟨2, ![c, d]⟩ 32) (hadj : ∀ i, (0 : Int) ≤ (adj i).toInt)
    (j : (⟨3, ![c, d, 1]⟩ : Shape).Idx) : ∃ k, wrap3 hb2 hb3 adj j = adj k :=
  ⟨_, wrap_word (hadj _) _⟩

/-! ## In range, the mask is 1 everywhere and the selection is its first array -/

theorem fill_select_eq {c d : Nat} {α : Type}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (hb0 : (⟨0, ![]⟩ : Shape).BroadcastsInDim ⟨3, ![c, d, 1]⟩ (![] : Fin 0 → Fin 3))
    (hb1 : (⟨1, ![1]⟩ : Shape).BroadcastsInDim ⟨3, ![1, 1, 1]⟩ ![2])
    (hb111 : (⟨3, ![1, 1, 1]⟩ : Shape).BroadcastsInDim ⟨3, ![c, d, 1]⟩ ![0, 1, 2])
    (hred : (⟨3, ![c, d, 1]⟩ : Shape).ReducesTo [2] ⟨2, ![c, d]⟩) (h0 : 0 < (⟨0, ![]⟩ : Shape).numel)
    (hbm : (⟨2, ![c, d]⟩ : Shape).BroadcastsInDim ⟨3, ![c, d, 128]⟩ ![0, 1])
    (adj : IVec ⟨2, ![c, d]⟩ 32)
    (hadj : ∀ i, (0 : Int) ≤ (adj i).toInt ∧ (adj i).toInt < 200000)
    (G X : (⟨3, ![c, d, 128]⟩ : Shape).Idx → α) :
    select (broadcastInDim ⟨3, ![c, d, 128]⟩ ![0, 1] hbm
        (Host.reduce IntOp.andi
          (andi
            (cmpi .sge (wrap3 hb2 hb3 adj) (broadcastInDim ⟨3, ![c, d, 1]⟩ ![] hb0 (constantI ⟨0, ![]⟩ 32 0#32)))
            (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
          (constantI ⟨0, ![]⟩ 1 1#1) hred h0)) G X = G := by
  funext i
  rw [select_apply]
  -- the mask at `i` is the reduction at the index `i` names, and the reduction is 1 at every index
  have hm : ∀ j, Host.reduce IntOp.andi
      (andi
        (cmpi .sge (wrap3 hb2 hb3 adj) (broadcastInDim ⟨3, ![c, d, 1]⟩ ![] hb0 (constantI ⟨0, ![]⟩ 32 0#32)))
        (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
      (constantI ⟨0, ![]⟩ 1 1#1) hred h0 j = 1#1 := by
    intro j
    refine reduce_andi_of_all _ _ hred h0 (fun p => ?_) rfl j
    -- at a position `p` both constants read through their broadcasts, and the wrapped word is an entry of `adj`
    show IntOp.andi (IntOp.cmpi .sge (wrap3 hb2 hb3 adj p) 0#32) (IntOp.cmpi .sle (wrap3 hb2 hb3 adj p) 199999#32) = 1#1
    obtain ⟨k, hk⟩ := wrap3_apply hb2 hb3 adj (fun i => (hadj i).1) p
    rw [hk]
    refine IntOp.andi_eq_one.2 ⟨IntOp.cmpi_sge.2 ?_, IntOp.cmpi_sle.2 ?_⟩
    · rw [toInt_zero]; exact (hadj k).1
    · rw [toInt_last]; have := (hadj k).2; omega
  have hb : broadcastInDim ⟨3, ![c, d, 128]⟩ ![0, 1] hbm
      (Host.reduce IntOp.andi
        (andi
          (cmpi .sge (wrap3 hb2 hb3 adj) (broadcastInDim ⟨3, ![c, d, 1]⟩ ![] hb0 (constantI ⟨0, ![]⟩ 32 0#32)))
          (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
        (constantI ⟨0, ![]⟩ 1 1#1) hred h0) i = 1#1 := hm _
  rw [hb, select_one]

/-! ## The range test reduced over both axes being 1 puts every entry in range -/

theorem range_of_all {c d : Nat}
    (hb2 : (⟨0, ![]⟩ : Shape).BroadcastsInDim ⟨2, ![c, d]⟩ (![] : Fin 0 → Fin 2))
    (hall : (⟨2, ![c, d]⟩ : Shape).ReducesTo [0, 1] ⟨0, ![]⟩) (h0 : 0 < (⟨0, ![]⟩ : Shape).numel)
    (adj : IVec ⟨2, ![c, d]⟩ 32)
    (h : Host.reduce IntOp.andi
        (andi (cmpi .sge adj (broadcastInDim ⟨2, ![c, d]⟩ ![] hb2 (constantI ⟨0, ![]⟩ 32 0#32)))
              (cmpi .slt adj (broadcastInDim ⟨2, ![c, d]⟩ ![] hb2 (constantI ⟨0, ![]⟩ 32 200000#32))))
        (constantI ⟨0, ![]⟩ 1 1#1) hall h0 ValueIdx.ix0 = 1#1) :
    ∀ i, (0 : Int) ≤ (adj i).toInt ∧ (adj i).toInt < 200000 := by
  intro i
  haveI : Subsingleton (⟨0, ![]⟩ : Shape).Idx := ⟨fun a b => funext fun e => e.elim0⟩
  have hi := Host.reduce_andi_all _ _ hall h0 ValueIdx.ix0 h i
  -- the entry of the tested array at `i`: both constants read through their broadcasts
  have hi' : IntOp.andi (IntOp.cmpi .sge (adj i) 0#32) (IntOp.cmpi .slt (adj i) 200000#32) = 1#1 := hi
  obtain ⟨hge, hlt⟩ := IntOp.andi_eq_one.1 hi'
  have h1 := IntOp.cmpi_sge.1 hge
  have h2 := IntOp.cmpi_slt.1 hlt
  rw [toInt_zero] at h1
  rw [toInt_bound] at h2
  exact ⟨h1, h2⟩

end Cert.Lib.IndexRange
-- ==== Proof.BridgeTake.lean ====
/- The row lookup inside its range: where every index lies in [0, 150000) the range mask keeps every row, so the masked lookup
   is the plain gather at the wrapped indices; and the item indices moved below the user rows stay in range. -/
import proofs.«412089_j71184787964144_2_alg».proof.Proof.KSpec
import proofs.«412089_j71184787964144_2_alg».proof.Proof.LibIndexRange
import Idealize.ShloMosaic.Lib.StableHlo.Predicate
import Idealize.ShloMosaic.Lib.ReduceAll

noncomputable section

namespace Cert.KernelIdeal.BridgeTake

open Cert.KernelIdeal Idealize.ShloMosaic Idealize.ShloMosaic.ValueIdx
open Facts₀ Facts

variable [Facts]

/-! ## One index word -/

/-- The last row's index, read signed. -/
theorem toInt_last : (149999#32 : BitVec 32).toInt = 149999 := by decide

/-- A word in [0, 150000) passes both range tests: it is at least 0 and at most 149999. -/
theorem tests_word {a : BitVec 32} (h0 : (0 : Int) ≤ a.toInt) (h1 : a.toInt < 150000) :
    IntOp.andi (IntOp.cmpi .sge a 0#32) (IntOp.cmpi .sle a 149999#32) = 1#1 := by
  refine IntOp.andi_eq_one.2 ⟨IntOp.cmpi_sge.2 ?_, IntOp.cmpi_sle.2 ?_⟩
  · rw [Cert.Lib.IndexRange.toInt_zero]; exact h0
  · rw [toInt_last]; omega

/-- A word in [0, 50000) added to 100000 does not wrap: the sum, read signed, lies in [100000, 150000). -/
theorem shift_word {a : BitVec 32} (h0 : (0 : Int) ≤ a.toInt) (h1 : a.toInt < 50000) :
    (0 : Int) ≤ (100000#32 + a).toInt ∧ (100000#32 + a).toInt < 150000 := by
  have hlt := a.isLt
  -- a word that reads non-negative signed reads the same unsigned
  have ha : a.toNat < 50000 := by
    rw [BitVec.toInt_eq_toNat_cond] at h0 h1
    split at h0 <;> omega
  have hs : (100000#32 + a).toNat = 100000 + a.toNat := by
    rw [BitVec.toNat_add, show (100000#32 : BitVec 32).toNat = 100000 from rfl]
    exact Nat.mod_eq_of_lt (by omega)
  rw [StableHlo.Predicate.toInt_eq_toNat_of_lt (by omega), hs]
  omega

/-! ## The wrapped indices and the mask -/

/-- With no negative index the wrap leaves every index alone: each entry of the wrapped column is an entry of `idx`. -/
theorem wrapRow_apply (idx : IVec S4096 32) (h : ∀ i, (0 : Int) ≤ (idx i).toInt) (p : S4096x1.Idx) :
    ∃ k, KSpec.wrapRow idx p = idx k :=
  ⟨_, Cert.Lib.IndexRange.wrap_word (h _) _⟩

/-- In range the mask keeps every row. -/
theorem takeMask_in_range (idx : IVec S4096 32) (h : ∀ i, 0 ≤ (idx i).toInt ∧ (idx i).toInt < 150000) (j : S4096.Idx) :
    KSpec.takeMask (KSpec.wrapRow idx) j = 1#1 := by
  unfold KSpec.takeMask
  refine Cert.Lib.IndexRange.reduce_andi_of_all _ _ _ _ (fun p => ?_) rfl j
  -- at a position both constants read through their broadcasts, and the wrapped word is an entry of `idx`
  show IntOp.andi (IntOp.cmpi .sge (KSpec.wrapRow idx p) 0#32) (IntOp.cmpi .sle (KSpec.wrapRow idx p) 149999#32) = 1#1
  obtain ⟨k, hk⟩ := wrapRow_apply idx (fun i => (h i).1) p
  rw [hk]
  exact tests_word (h k).1 (h k).2

/-- In range, the masked lookup is the gather. -/
theorem takeK_in_range (L : FVec Ideal S150000x64 .f32) (idx : IVec S4096 32)
    (h : ∀ i, 0 ≤ (idx i).toInt ∧ (idx i).toInt < 150000) :
    KSpec.takeK L idx = Host.gather gather_S150000x64_S4096x1_S4096x64_1_0_n_n_0_1_164 L (KSpec.wrapRow idx) := by
  funext i
  unfold KSpec.takeK
  rw [select_apply]
  -- the stretched mask at `i` is the mask at the row `i` names
  have hb : broadcastInDim S4096x64 ![0] bcast_S4096_S4096x64_0 (KSpec.takeMask (KSpec.wrapRow idx)) i = 1#1 :=
    takeMask_in_range idx h _
  rw [hb, select_one]

/-- Item indices in [0, 50000), moved below the 100000 user rows, lie in [0, 150000). -/
theorem itemIdx_range (a6 : IVec S4096 32) (h : ∀ i, 0 ≤ (a6 i).toInt ∧ (a6 i).toInt < 50000) :
    ∀ i, 0 ≤ (KSpec.itemIdx a6 i).toInt ∧ (KSpec.itemIdx a6 i).toInt < 150000 := by
  intro i
  show (0 : Int) ≤ (100000#32 + a6 i).toInt ∧ (100000#32 + a6 i).toInt < 150000
  exact shift_word (h i).1 (h i).2

end Cert.KernelIdeal.BridgeTake

end
-- ==== Proof.Bridge.lean ====
/- The two programs compute one function of the argument arrays, where the batch indices are in range. -/
import proofs.«412089_j71184787964144_2_alg».proof.Proof.KSpec
import proofs.«412089_j71184787964144_2_alg».proof.Proof.BridgeTake
import proofs.«412089_j71184787964144_2_alg».proof.Proof.RefSide
import Idealize.ShloMosaic.PureOps.Ideal.Laws
import Idealize.ShloMosaic.Lib.Pipeline.Value

noncomputable section

namespace Cert.Bridge

open Idealize.ShloMosaic Idealize.ShloMosaic.ValueIdx

variable [Cert.KernelIdeal.Facts] [Cert.ReferenceIdeal.Facts]

/-! ### The literal words -/

/-- The word `0x40800000` is four. -/
theorem word_four : Ideal.ofBits .f32 0x40800000#32 = ((4 : ℝ) : EReal) := by
  simp [Ideal.ofBits, Ideal.ieee, -EReal.coe_mul]; norm_num

/-- The word `0x3E800000` is a quarter. -/
theorem word_quarter : Ideal.ofBits .f32 0x3E800000#32 = ((1 / 4 : ℝ) : EReal) := by
  simp [Ideal.ofBits, Ideal.ieee, -EReal.coe_mul]; norm_num

/-- The word `0x3F800000` is one. -/
theorem word_one : Ideal.ofBits .f32 0x3F800000#32 = 1 := by
  simp [Ideal.ofBits, Ideal.ieee, -EReal.coe_mul]; norm_num

/-! ### The layers, at any float family

The two programs' shape facts and gather/scatter records have equal fields, so each stage of the reference is the
specification's stage by definition. One lemma per layer keeps each comparison short. -/

section Generic
variable {F : FTy → Type} [FloatOps F]

theorem emb0_eq (a0 : FVec F Cert.KernelIdeal.S100000x64 .f32) (a1 : FVec F Cert.KernelIdeal.S50000x64 .f32) :
    Cert.KernelIdeal.KSpec.emb0 a0 a1 = Cert.ReferenceIdeal.Read.val_main_v0 (F := F) a0 a1 := rfl

theorem layer1_eq (a0 : FVec F Cert.KernelIdeal.S100000x64 .f32) (a1 : FVec F Cert.KernelIdeal.S50000x64 .f32)
    (a2 a3 : IVec Cert.KernelIdeal.S4000000 32) (a4 : FVec F Cert.KernelIdeal.S4000000 .f32) :
    Cert.KernelIdeal.KSpec.spmm a2 a3 a4 (Cert.ReferenceIdeal.Read.val_main_v0 (F := F) a0 a1)
      = Cert.ReferenceIdeal.Read.val_main_v13 (F := F) a0 a1 a2 a3 a4 := rfl

theorem layer2_eq (a0 : FVec F Cert.KernelIdeal.S100000x64 .f32) (a1 : FVec F Cert.KernelIdeal.S50000x64 .f32)
    (a2 a3 : IVec Cert.KernelIdeal.S4000000 32) (a4 : FVec F Cert.KernelIdeal.S4000000 .f32) :
    Cert.KernelIdeal.KSpec.spmm a2 a3 a4 (Cert.ReferenceIdeal.Read.val_main_v13 (F := F) a0 a1 a2 a3 a4)
      = Cert.ReferenceIdeal.Read.val_main_v27 (F := F) a0 a1 a2 a3 a4 := rfl

theorem layer3_eq (a0 : FVec F Cert.KernelIdeal.S100000x64 .f32) (a1 : FVec F Cert.KernelIdeal.S50000x64 .f32)
    (a2 a3 : IVec Cert.KernelIdeal.S4000000 32) (a4 : FVec F Cert.KernelIdeal.S4000000 .f32) :
    Cert.KernelIdeal.KSpec.spmm a2 a3 a4 (Cert.ReferenceIdeal.Read.val_main_v27 (F := F) a0 a1 a2 a3 a4)
      = Cert.ReferenceIdeal.Read.val_main_v41 (F := F) a0 a1 a2 a3 a4 := rfl

/-- The wrapped user indices, as a column. -/
theorem wrapRow_eq (a5 : IVec Cert.KernelIdeal.S4096 32) :
    Cert.KernelIdeal.KSpec.wrapRow a5 = Cert.ReferenceIdeal.Read.val_main_v50 (F := F) a5 := rfl

/-- The wrapped item indices, moved below the user rows, as a column. -/
theorem wrapItem_eq (a6 : IVec Cert.KernelIdeal.S4096 32) :
    Cert.KernelIdeal.KSpec.wrapRow (Cert.KernelIdeal.KSpec.itemIdx a6) = Cert.ReferenceIdeal.Read.val_main_v59 (F := F) a6 := rfl

end Generic

/-- The pooled tables agree: the sum of the four layers times the word of 1/4 is that sum divided by the word of 4. -/
theorem table_eq (a0 : FVec Ideal Cert.KernelIdeal.S100000x64 .f32) (a1 : FVec Ideal Cert.KernelIdeal.S50000x64 .f32)
    (a2 a3 : IVec Cert.KernelIdeal.S4000000 32) (a4 : FVec Ideal Cert.KernelIdeal.S4000000 .f32) :
    Cert.KernelIdeal.KSpec.table a0 a1 a2 a3 a4 = Cert.ReferenceIdeal.Read.val_main_v44 (F := Ideal) a0 a1 a2 a3 a4 := by
  unfold Cert.KernelIdeal.KSpec.table
  rw [emb0_eq, layer1_eq, layer2_eq, layer3_eq]
  funext i
  rw [Cert.ReferenceIdeal.Read.val_main_v44_apply, Cert.ReferenceIdeal.Read.val_main_v42_apply,
    Cert.ReferenceIdeal.Read.val_main_v28_apply, Cert.ReferenceIdeal.Read.val_main_v14_apply,
    Cert.ReferenceIdeal.Read.val_main_v43_apply, Cert.ReferenceIdeal.Read.val_main_cst_7_apply]
  show (((_ + _) + _) + _) * Ideal.ofBits .f32 0x3E800000#32 = Ideal.div (((_ + _) + _) + _) (Ideal.ofBits .f32 0x40800000#32)
  rw [word_four, word_quarter, Ideal.div_coe (by norm_num)]

/-! ### The score, read at an index -/

/-- The score column cast to a vector reads, at `i`, the logistic of row `i`'s dot product. -/
theorem score_read (u v : FVec Ideal Cert.KernelIdeal.S4096x64 .f32)
    (h : Cert.KernelIdeal.S4096x1.ShapeCasts Cert.KernelIdeal.S4096) (i : Cert.KernelIdeal.S4096.Idx) :
    shapeCast Cert.KernelIdeal.S4096 (Cert.KernelIdeal.KSpec.score u v) h i
      = Ideal.logistic (∑ k : Fin 64, u (Cert.ReferenceIdeal.Read.idx_main_v62 i k) * v (Cert.ReferenceIdeal.Read.idx_main_v62 i k)) := by
  rw [shapeCast_apply (Cert.KernelIdeal.KSpec.score u v) h i (ix2 (i 0) (0 : Fin 1)) (by
    rw [Shape.rowMajor_val_two, Shape.rowMajor_val_one]
    show (i 0).val * 1 + 0 = (i 0).val
    omega)]
  unfold Cert.KernelIdeal.KSpec.score
  refine congrArg Ideal.logistic (Finset.sum_congr rfl fun k _ => ?_)
  have hk : Cert.KernelIdeal.KSpec.rc (ix2 (i 0) (0 : Fin 1)) k = Cert.ReferenceIdeal.Read.idx_main_v62 i k := by
    funext a
    match a with
    | ⟨0, _⟩ => rfl
    | ⟨1, _⟩ => rfl
  rw [hk]

/-- The reference's last stages over any two batches of rows: one over one plus the exponential of the negated
    dot product is the logistic. -/
theorem logistic_read (u v : FVec Ideal Cert.KernelIdeal.S4096x64 .f32) (i : Cert.KernelIdeal.S4096.Idx) :
    Ideal.div (Ideal.ofBits .f32 0x3F800000#32)
        (Ideal.ofBits .f32 0x3F800000#32
          + Ideal.exp (-(Ideal.ofBits .f32 0x00000000#32
              + ∑ k : Fin 64, u (Cert.ReferenceIdeal.Read.idx_main_v62 i k) * v (Cert.ReferenceIdeal.Read.idx_main_v62 i k))))
      = Ideal.logistic (∑ k : Fin 64, u (Cert.ReferenceIdeal.Read.idx_main_v62 i k) * v (Cert.ReferenceIdeal.Read.idx_main_v62 i k)) := by
  rw [word_one, Ideal.ofBits_zero_f32, zero_add]
  rfl

/-- With the batch indices in range, the kernel's result is the reference's. -/
theorem result_eq_ref (a0 : FVec Ideal Cert.KernelIdeal.S100000x64 .f32) (a1 : FVec Ideal Cert.KernelIdeal.S50000x64 .f32)
    (a2 a3 : IVec Cert.KernelIdeal.S4000000 32) (a4 : FVec Ideal Cert.KernelIdeal.S4000000 .f32) (a5 a6 : IVec Cert.KernelIdeal.S4096 32)
    (h5 : ∀ i, 0 ≤ (a5 i).toInt ∧ (a5 i).toInt < 150000) (h6 : ∀ i, 0 ≤ (a6 i).toInt ∧ (a6 i).toInt < 50000) :
    Cert.KernelIdeal.KSpec.result a0 a1 a2 a3 a4 a5 a6
      = Cert.ReferenceIdeal.Read.val_main_v68 (F := Ideal) a0 a1 a2 a3 a4 a5 a6 := by
  unfold Cert.KernelIdeal.KSpec.result
  rw [Cert.KernelIdeal.BridgeTake.takeK_in_range _ a5 h5,
    Cert.KernelIdeal.BridgeTake.takeK_in_range _ (Cert.KernelIdeal.KSpec.itemIdx a6)
      (Cert.KernelIdeal.BridgeTake.itemIdx_range a6 h6),
    table_eq, wrapRow_eq (F := Ideal), wrapItem_eq (F := Ideal)]
  change shapeCast Cert.KernelIdeal.S4096
      (Cert.KernelIdeal.KSpec.score (Cert.ReferenceIdeal.Read.val_main_v51 (F := Ideal) a0 a1 a2 a3 a4 a5)
        (Cert.ReferenceIdeal.Read.val_main_v60 (F := Ideal) a0 a1 a2 a3 a4 a6)) _ = _
  funext i
  rw [Cert.ReferenceIdeal.Read.val_main_v68_apply, Cert.ReferenceIdeal.Read.val_main_v67_apply,
    Cert.ReferenceIdeal.Read.val_main_cst_15_apply, Cert.ReferenceIdeal.Read.val_main_v66_apply,
    Cert.ReferenceIdeal.Read.val_main_v65_apply, Cert.ReferenceIdeal.Read.val_main_cst_14_apply,
    Cert.ReferenceIdeal.Read.val_main_v64_apply, Cert.ReferenceIdeal.Read.val_main_v63_apply,
    Cert.ReferenceIdeal.Read.val_main_v62_apply, Cert.ReferenceIdeal.Read.val_main_cst_13_apply]
  simp only [Cert.ReferenceIdeal.Read.val_main_v61_apply]
  generalize Cert.ReferenceIdeal.Read.val_main_v51 (F := Ideal) a0 a1 a2 a3 a4 a5 = u
  generalize Cert.ReferenceIdeal.Read.val_main_v60 (F := Ideal) a0 a1 a2 a3 a4 a6 = v
  rw [score_read u v _ i]
  exact (logistic_read u v i).symm

end Cert.Bridge

end
-- ==== Proof.PreDecode.lean ====
/- The precondition, read: where it holds, every user index lies in [0, 150000) and every item index in [0, 50000). -/
import proofs.«412089_j71184787964144_2_alg».proof.Proof.Gen.Pre_finite_inputs
import Idealize.ShloMosaic.PureOps.Ideal
import Idealize.ShloMosaic.Lib.StableHlo.Predicate
import Idealize.ShloMosaic.Lib.ReduceAll

noncomputable section

namespace Cert.PreDecode

open Idealize.ShloMosaic Cert.Pre_finite_inputs

variable [Cert.Pre_finite_inputs.Facts]

/-- The scalar shape has exactly one index (the empty tuple of coordinates). -/
instance : Subsingleton S_.Idx := ⟨fun a b => funext fun d => d.elim0⟩

/-- One `all` of a two-sided signed range test. If the conjunction over all 4096 positions of
    `lo ≤ x[i]` and `x[i] < up` (both compared as signed words against a scalar spread to every position) is true,
    then each `x[i]`, read signed, lies in `[lo, up)`. -/
theorem all_range (x : IVec S4096 32) (lo up : BitVec 32) (init : IVec S_ 1) (j : S_.Idx)
    (e : Host.reduce IntOp.andi
          (andi (cmpi .sge x (broadcastInDim S4096 ![] Facts.bcast_S_S4096 (constantI S_ 32 lo)))
                (cmpi .slt x (broadcastInDim S4096 ![] Facts.bcast_S_S4096 (constantI S_ 32 up))))
          init Facts.reducesTo_S4096_S_d0 Facts.h_S_ j = 1#1) (i : S4096.Idx) :
    lo.toInt ≤ (x i).toInt ∧ (x i).toInt < up.toInt := by
  -- the conjunction of all positions is true, so the one at `i` is
  have hi := Host.reduce_andi_all _ _ _ _ j e i
  -- at `i` the test is the conjunction of the two compares of `x i` with the two scalars
  have hi' : IntOp.andi (IntOp.cmpi .sge (x i) lo) (IntOp.cmpi .slt (x i) up) = 1#1 := hi
  obtain ⟨h1, h2⟩ := IntOp.andi_eq_one.1 hi'
  exact ⟨IntOp.cmpi_sge.1 h1, IntOp.cmpi_slt.1 h2⟩

/-- The two index ranges, out of the precondition's last two conjuncts. -/
theorem ranges_of_pre (a0 : FVec Ideal S100000x64 .f32) (a1 : FVec Ideal S50000x64 .f32) (a2 a3 : IVec S4000000 32)
    (a4 : FVec Ideal S4000000 .f32) (a5 a6 : IVec S4096 32)
    (h : Cert.Pre_finite_inputs.fn (F := Ideal) a0 a1 a2 a3 a4 a5 a6 = fun _ => 1#1) :
    (∀ i, 0 ≤ (a5 i).toInt ∧ (a5 i).toInt < 150000) ∧ (∀ i, 0 ≤ (a6 i).toInt ∧ (a6 i).toInt < 50000) := by
  -- the precondition is a scalar: read it at its one index
  have h0 := congrFun h (fun d => d.elim0)
  dsimp only [Cert.Pre_finite_inputs.fn, Cert.Pre_finite_inputs.fn_part1] at h0
  -- the precondition is ((((c1 ∧ c2) ∧ c3) ∧ c4) ∧ c5): the last two conjuncts are the two range tests
  obtain ⟨h1, h6⟩ := IntOp.andi_eq_one.1 h0
  obtain ⟨-, h5⟩ := IntOp.andi_eq_one.1 h1
  -- the three scalars, read signed
  have z : (0#32 : BitVec 32).toInt = 0 := by decide
  have u5 : (150000#32 : BitVec 32).toInt = 150000 := by decide
  have u6 : (50000#32 : BitVec 32).toInt = 50000 := by decide
  refine ⟨fun i => ?_, fun i => ?_⟩
  · have r := all_range a5 0#32 150000#32 _ _ h5 i
    rw [z, u5] at r
    exact r
  · have r := all_range a6 0#32 50000#32 _ _ h6 i
    rw [z, u6] at r
    exact r

end Cert.PreDecode

end
-- ==== Proof.lean ====
/- LightGCN scoring, kernel against reference, over the extended reals.

   Both programs build the same embedding table (users above items) and the same three propagated layers (gather the rows
   at `col`, scale by `vals`, scatter-add at `row`): the same host operations on both sides, carried as one function. The
   kernel pools the four layers in a pallas_call as `(((e0 + e1) + e2) + e3) · f32(1/4)`, the reference on the host as
   `(((e0 + e1) + e2) + e3) / f32(4)`: one function on every extended real, since 4 ≠ 0 and both words are exact. The
   kernel looks the user and item rows up with a range mask (rows out of range read as the quiet-NaN word), the reference
   with a plain gather; where the precondition puts every user index in [0, 150000) and every item index in [0, 50000)
   the mask keeps every row and the two lookups are one gather. The kernel's score call takes the logistic of each row
   pair's dot product; the reference computes `1 / (1 + exp (-(0 + Σ u·v)))`, which is the logistic by definition.

   The frames of the two kernel programs are the generated ones; the reference's frame is its generated run. The kernel's
   value is read off a second call of the several-regions launch theorem whose post also names the result buffer
   (FrameRun), region by region (Region0, Region1) and host stretch by host stretch (HostA, HostB). -/
import proofs.«412089_j71184787964144_2_alg».proof.Defs
import proofs.«412089_j71184787964144_2_alg».proof.Proof.Gen.Kernel
import proofs.«412089_j71184787964144_2_alg».proof.Proof.Gen.Kernel.Frame
import proofs.«412089_j71184787964144_2_alg».proof.Proof.Gen.KernelIdeal
import proofs.«412089_j71184787964144_2_alg».proof.Proof.Gen.KernelIdeal.Frame
import proofs.«412089_j71184787964144_2_alg».proof.Proof.Gen.ReferenceIdeal
import proofs.«412089_j71184787964144_2_alg».proof.Proof.Gen.Pre_finite_inputs
import proofs.«412089_j71184787964144_2_alg».proof.Proof.FrameRun
import proofs.«412089_j71184787964144_2_alg».proof.Proof.KValue
import proofs.«412089_j71184787964144_2_alg».proof.Proof.RefSide
import proofs.«412089_j71184787964144_2_alg».proof.Proof.Bridge
import proofs.«412089_j71184787964144_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at `KSpec.result` of the (agreeing) argument arrays: the kernel's by its value
    (KValue), the reference's by its generated run and the bridge, whose two range hypotheses the precondition gives. -/
theorem algebraic : Cert.algebraic_KernelIdeal_ReferenceIdeal := by
  intro m ρ m' ρ' hpre hagree
  refine ⟨fun c => Cert.KernelIdeal.KSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.W7_result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h5, h6⟩ := Cert.PreDecode.ranges_of_pre _ _ _ _ _ _ _ (hpre c)
    rw [Cert.ReferenceIdeal.Read.val_main_v68_eq, (hagree c).1, (hagree c).2.1, (hagree c).2.2.1, (hagree c).2.2.2.1,
      (hagree c).2.2.2.2.1, (hagree c).2.2.2.2.2.1, (hagree c).2.2.2.2.2.2]
    exact (Cert.Bridge.result_eq_ref _ _ _ _ _ _ _ h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
